-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S128x128 .f32) (main_arg3 : FVec F S128x128 .f32) (main_arg4 : FVec F S128 .f32) (main_arg5 : FVec F S128x64 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S5000x128 : Shape := ⟨2, ![5000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 60
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S50000, .f32⟩
  | .hbm, ⟨16, _⟩ => ⟨S600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S_, .f32⟩
  | .hbm, ⟨34, _⟩ => ⟨S50000x128, .f32⟩
  | .hbm, ⟨35, _⟩ => ⟨S600000x1, .i32⟩
  | .hbm, ⟨36, _⟩ => ⟨S50000x128, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S_, .i32⟩
  | .hbm, ⟨43, _⟩ => ⟨S600000, .i32⟩
  | .hbm, ⟨44, _⟩ => ⟨S600000, .i1⟩
  | .hbm, ⟨45, _⟩ => ⟨S_, .i32⟩
  | .hbm, ⟨46, _⟩ => ⟨S600000, .i32⟩
  | .hbm, ⟨47, _⟩ => ⟨S600000, .i32⟩
  | .hbm, ⟨48, _⟩ => ⟨S600000, .i32⟩
  | .hbm, ⟨49, _⟩ => ⟨S600000x1, .i32⟩
  | .hbm, ⟨50, _⟩ => ⟨S600000x128, .f32⟩
  | .hbm, ⟨51, _⟩ => ⟨S_, .f32⟩
  | .hbm, ⟨52, _⟩ => ⟨S50000x128, .f32⟩
  | .hbm, ⟨53, _⟩ => ⟨S600000x1, .i32⟩
  | .hbm, ⟨54, _⟩ => ⟨S50000x128, .f32⟩
  | .hbm, ⟨55, _⟩ => ⟨S50000x1, .f32⟩
  | .hbm, ⟨56, _⟩ => ⟨S50000x128, .f32⟩
  | .hbm, ⟨57, _⟩ => ⟨S50000x128, .f32⟩
  | .hbm, ⟨58, _⟩ => ⟨S1x64, .f32⟩
  | .hbm, ⟨59, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S50000x128, .f32⟩
  | .hbm, ⟨23, _⟩ => ⟨S600000x1, .i32⟩
  | .hbm, ⟨24, _⟩ => ⟨S50000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S50000, .f32⟩
  | .hbm, ⟨29, _⟩ => ⟨S600000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S1x600000, .i32⟩
  | .hbm, ⟨47, _⟩ => ⟨S600000, .i32⟩
  | .hbm, ⟨48, _⟩ => ⟨S1x600000, .i32⟩
  | .hbm, ⟨49, _⟩ => ⟨S600000, .i32⟩
  | .hbm, ⟨50, _⟩ => ⟨S_, .i32⟩
  | .hbm, ⟨51, _⟩ => ⟨S600000, .i32⟩
  | .hbm, ⟨52, _⟩ => ⟨S600000, .i1⟩
  | .hbm, ⟨53, _⟩ => ⟨S_, .i32⟩
  | .hbm, ⟨54, _⟩ => ⟨S600000, .i32⟩
  | .hbm, ⟨55, _⟩ => ⟨S600000, .i32⟩
  | .hbm, ⟨56, _⟩ => ⟨S600000, .i32⟩
  | .hbm, ⟨57, _⟩ => ⟨S600000x1, .i32⟩
  | .hbm, ⟨58, _⟩ => ⟨S600000x128, .f32⟩
  | .hbm, ⟨59, _⟩ => ⟨S_, .f32⟩
  | .hbm, ⟨60, _⟩ => ⟨S50000x128, .f32⟩
  | .hbm, ⟨61, _⟩ => ⟨S600000x1, .i32⟩
  | .hbm, ⟨62, _⟩ => ⟨S50000x128, .f32⟩
  | .hbm, ⟨63, _⟩ => ⟨S_, .f32⟩
  | .hbm, ⟨64, _⟩ => ⟨S600000, .f32⟩
  | .hbm, ⟨65, _⟩ => ⟨S_, .f32⟩
  | .hbm, ⟨66, _⟩ => ⟨S50000, .f32⟩
  | .hbm, ⟨67, _⟩ => ⟨S600000x1, .i32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x128, .f32⟩
  | .hbm, ⟨74, _⟩ => ⟨S50000x128, .f32⟩
  | .hbm, ⟨75, _⟩ => ⟨S50000x64, .f32⟩
  | .hbm, ⟨76, _⟩ => ⟨S50000x64, .f32⟩
  | .hbm, ⟨77, _⟩ => ⟨S50000x64, .f32⟩
  | .hbm, ⟨78, _⟩ => ⟨S1x64, .f32⟩
  | .hbm, ⟨79, _⟩ => ⟨S50000x64, .f32⟩
  | .hbm, ⟨80, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.LibMeanLaw.lean ====
/-
  The one algebraic law of this certificate, on the extended reals.

  The kernel normalises a neighbourhood sum by MULTIPLYING with a reciprocal it computed once,
  `a * (1 / max d 1)`; the reference DIVIDES, `a / max d 1`. Division on the extended reals is the product
  with the inverse whenever the divisor is not zero, and `max d 1` is at least `1`, hence never zero — whatever
  `d` is (a degree count, or even an infinity). So the two agree for EVERY `a` and `d`: no finiteness of the
  inputs is used anywhere.
-/
import Idealize.ShloMosaic.PureOps.Ideal

noncomputable section

namespace Cert.MeanLaw

open Idealize.ShloMosaic

/-- `max d 1` is never zero on the extended reals: it is at least `1`. -/
theorem max_one_ne_zero (d : EReal) : max d 1 ≠ 0 :=
  ne_of_gt (lt_of_lt_of_le zero_lt_one (le_max_right d 1))

/-- Multiplying by the reciprocal of `max d 1` IS dividing by `max d 1`, for every extended real `a`. -/
theorem mul_recip_eq_div (a d : EReal) :
    a * Ideal.div 1 (max d 1) = Ideal.div a (max d 1) := by
  unfold Ideal.div
  rw [if_neg (max_one_ne_zero d), if_neg (max_one_ne_zero d), one_mul]

end Cert.MeanLaw

end
-- ==== Proof.MeanForms.lean ====
/-
  The two spellings of the neighbourhood mean, as whole arrays.

  For a [50000, 128] array `a` of neighbourhood sums and a [50000] vector `deg` of in-degrees, the kernel's caller
  forms `a * col(1 / max(deg, 1))` and the reference `a / col(max(deg, 1))`, where `col` copies a per-node scalar
  along the node's 128 features. Entry `(r, q)` of either reads `deg` at `r` only, and there the two agree by
  `MeanLaw.mul_recip_eq_div`. Neither `a` nor `deg` is opened: they are whatever the shared gather and scatter
  produce.
-/
import proofs.«108358_j50190987821456_1_alg».proof.Proof.LibMeanLaw
import Idealize.ShloMosaic.Lib.Pipeline.Value
import Idealize.ShloMosaic.Lib.ValueIdx
import Idealize.ShloMosaic.Lib.IdealHost

noncomputable section

namespace Cert.Sage

open Idealize.ShloMosaic

/-- The node (row) of an entry of a [50000, 128] array, as an index of a [50000] vector. -/
def nodeAt (i : (⟨2, ![50000, 128]⟩ : Shape).Idx) : (⟨1, ![50000]⟩ : Shape).Idx := fun a => match a with
  | ⟨0, _⟩ => ⟨(i 0).val, (i 0).isLt⟩

/-- The same node as an index of a [50000, 1] column. -/
def nodeColAt (i : (⟨2, ![50000, 128]⟩ : Shape).Idx) : (⟨2, ![50000, 1]⟩ : Shape).Idx := fun a => match a with
  | ⟨0, _⟩ => ⟨(i 0).val, (i 0).isLt⟩
  | ⟨1, _⟩ => ⟨0, Nat.one_pos⟩

/-- The scalar `1.0` broadcast to a [50000] vector is `1` at every node. -/
theorem ones_apply (hc : (⟨0, ![]⟩ : Shape).BroadcastsInDim ⟨1, ![50000]⟩ (![] : Fin 0 → Fin (⟨1, ![50000]⟩ : Shape).rank))
    (r : (⟨1, ![50000]⟩ : Shape).Idx) :
    broadcastInDim (⟨1, ![50000]⟩ : Shape) ![] hc (constant (F := Ideal) ⟨0, ![]⟩ .f32 0x3F800000#32) r = 1 := by
  rw [broadcastInDim_apply ![] hc _ r ValueIdx.ix0 (fun a => a.elim0), ValueIdx.constant_apply, Ideal.ofBits_one_f32]

/-- A per-node scalar copied along the features, read at entry `(r, q)`: the scalar of node `r`. -/
theorem col_apply (h1 : (⟨1, ![50000]⟩ : Shape).BroadcastsInDim ⟨2, ![50000, 1]⟩ (![0] : Fin 1 → Fin (⟨2, ![50000, 1]⟩ : Shape).rank))
    (h2 : (⟨2, ![50000, 1]⟩ : Shape).BroadcastsInDim ⟨2, ![50000, 128]⟩ (![0, 1] : Fin 2 → Fin (⟨2, ![50000, 128]⟩ : Shape).rank))
    (d : (⟨1, ![50000]⟩ : Shape).Idx → EReal) (i : (⟨2, ![50000, 128]⟩ : Shape).Idx) :
    broadcastInDim (⟨2, ![50000, 128]⟩ : Shape) ![0, 1] h2 (broadcastInDim (⟨2, ![50000, 1]⟩ : Shape) ![0] h1 d) i
      = d (nodeAt i) := by
  rw [broadcastInDim_apply ![0, 1] h2 (broadcastInDim (⟨2, ![50000, 1]⟩ : Shape) ![0] h1 d) i (nodeColAt i) (fun a => by
      match a with
      | ⟨0, _⟩ => rfl
      | ⟨1, _⟩ => rfl),
    broadcastInDim_apply ![0] h1 d (nodeColAt i) (nodeAt i) (fun a => by
      match a with
      | ⟨0, _⟩ => rfl)]

/-- Multiplying the sums by the copied reciprocals of `max(deg, 1)` is dividing them by the copied `max(deg, 1)`. -/
theorem mean_forms (hc : (⟨0, ![]⟩ : Shape).BroadcastsInDim ⟨1, ![50000]⟩ (![] : Fin 0 → Fin (⟨1, ![50000]⟩ : Shape).rank))
    (h1 : (⟨1, ![50000]⟩ : Shape).BroadcastsInDim ⟨2, ![50000, 1]⟩ (![0] : Fin 1 → Fin (⟨2, ![50000, 1]⟩ : Shape).rank))
    (h2 : (⟨2, ![50000, 1]⟩ : Shape).BroadcastsInDim ⟨2, ![50000, 128]⟩ (![0, 1] : Fin 2 → Fin (⟨2, ![50000, 128]⟩ : Shape).rank))
    (a : FVec Ideal ⟨2, ![50000, 128]⟩ .f32) (deg : FVec Ideal ⟨1, ![50000]⟩ .f32) :
    mulf a (broadcastInDim (⟨2, ![50000, 128]⟩ : Shape) ![0, 1] h2 (broadcastInDim (⟨2, ![50000, 1]⟩ : Shape) ![0] h1
        (Host.divf (broadcastInDim (⟨1, ![50000]⟩ : Shape) ![] hc (constant ⟨0, ![]⟩ .f32 0x3F800000#32))
          (maximumf deg (broadcastInDim (⟨1, ![50000]⟩ : Shape) ![] hc (constant ⟨0, ![]⟩ .f32 0x3F800000#32))))))
      = Host.divf a (broadcastInDim (⟨2, ![50000, 128]⟩ : Shape) ![0, 1] h2 (broadcastInDim (⟨2, ![50000, 1]⟩ : Shape) ![0] h1
          (maximumf deg (broadcastInDim (⟨1, ![50000]⟩ : Shape) ![] hc (constant ⟨0, ![]⟩ .f32 0x3F800000#32))))) := by
  funext i
  have L := col_apply h1 h2 (Host.divf (broadcastInDim (⟨1, ![50000]⟩ : Shape) ![] hc (constant (F := Ideal) ⟨0, ![]⟩ .f32 0x3F800000#32))
          (maximumf deg (broadcastInDim (⟨1, ![50000]⟩ : Shape) ![] hc (constant (F := Ideal) ⟨0, ![]⟩ .f32 0x3F800000#32)))) i
  have R := col_apply h1 h2 (maximumf deg (broadcastInDim (⟨1, ![50000]⟩ : Shape) ![] hc (constant (F := Ideal) ⟨0, ![]⟩ .f32 0x3F800000#32))) i
  show a i * _ = Ideal.div (a i) _
  rw [L, R]
  show a i * Ideal.div (broadcastInDim (⟨1, ![50000]⟩ : Shape) ![] hc (constant (F := Ideal) ⟨0, ![]⟩ .f32 0x3F800000#32) _)
      (max (deg _) (broadcastInDim (⟨1, ![50000]⟩ : Shape) ![] hc (constant (F := Ideal) ⟨0, ![]⟩ .f32 0x3F800000#32) _))
    = Ideal.div (a i) (max (deg _) (broadcastInDim (⟨1, ![50000]⟩ : Shape) ![] hc (constant (F := Ideal) ⟨0, ![]⟩ .f32 0x3F800000#32) _))
  rw [ones_apply hc]
  exact MeanLaw.mul_recip_eq_div _ _

end Cert.Sage

end
-- ==== Proof.HostChain.lean ====
/-
  The host operations around the two regions, as functions of the argument arrays.

  Both layers aggregate with the same edge list: the source column (a negative source index wrapped by 50000) and
  the destination column. `agg z` gathers the rows of `z` at the sources and scatter-adds them at the
  destinations; `degMax` is the in-degree (a scatter-add of ones) raised to at least 1. The kernel's caller
  multiplies `agg z` by the copied reciprocals `1 / degMax` (`meanK`); dividing by the copied `degMax` (`meanR`) is
  the same array by `mean_forms`. The gather and the scatter-add are never opened.

  Then what each region finds in its windows' arrays: the first region finds `meanK x`, `x`, the first layer's
  weights and its bias reshaped to a row; the second finds `meanK h`, `h`, the second layer's weights and its bias
  row, where `h` is what the first region left in its output array.
-/
import proofs.«108358_j50190987821456_1_alg».proof.Proof.Gen.KernelIdeal.Frame
import proofs.«108358_j50190987821456_1_alg».proof.Proof.MeanForms
import Idealize.ShloMosaic.Lib.StableHlo.Run

set_option maxRecDepth 16384

noncomputable section

namespace Cert.Sage.Chain

open Cert.KernelIdeal Cert.KernelIdeal.Gen Cert.Sage Idealize.ShloMosaic Idealize.ShloMosaic.TcCoe Idealize.SL.Sem
open Idealize.ShloMosaic.StableHlo

/-! ## The shared host functions -/

/-- The edges' source nodes. -/
def srcVec (ei : (⟨S2x600000, .i32⟩ : BufTy).Contents (Elt Ideal)) : (⟨S600000, .i32⟩ : BufTy).Contents (Elt Ideal) :=
  shapeCast _ (extractStridedSlice S1x600000 ![0, 0] ei slices_S2x600000_S1x600000_0_0) shapeCasts_S1x600000_S600000

/-- The edges' destination nodes. -/
def dstVec (ei : (⟨S2x600000, .i32⟩ : BufTy).Contents (Elt Ideal)) : (⟨S600000, .i32⟩ : BufTy).Contents (Elt Ideal) :=
  shapeCast _ (extractStridedSlice S1x600000 ![1, 0] ei slices_S2x600000_S1x600000_1_0) shapeCasts_S1x600000_S600000

/-- The source column the gather reads: a negative index wrapped by the node count. -/
def srcCol (ei : (⟨S2x600000, .i32⟩ : BufTy).Contents (Elt Ideal)) : (⟨S600000x1, .i32⟩ : BufTy).Contents (Elt Ideal) :=
  broadcastInDim S600000x1 ![0] bcast_S600000_S600000x1_0
    (select (cmpi .slt (srcVec ei) (broadcastInDim S600000 ![] bcast_S_S600000 (constantI S_ 32 0#32)))
      (addi (srcVec ei) (broadcastInDim S600000 ![] bcast_S_S600000 (constantI S_ 32 50000#32))) (srcVec ei))

/-- The destination column the scatter-adds read. -/
def dstCol (ei : (⟨S2x600000, .i32⟩ : BufTy).Contents (Elt Ideal)) : (⟨S600000x1, .i32⟩ : BufTy).Contents (Elt Ideal) :=
  broadcastInDim S600000x1 ![0] bcast_S600000_S600000x1_0 (dstVec ei)

/-- The neighbourhood sums of `z`: its rows gathered at the sources, scatter-added at the destinations. -/
def agg (z : FVec Ideal S50000x128 .f32) (ei : (⟨S2x600000, .i32⟩ : BufTy).Contents (Elt Ideal)) :
    FVec Ideal S50000x128 .f32 :=
  Host.scatterAdd scatter_S50000x128_S600000x1_S600000x128_1_0_0_1 (broadcastInDim S50000x128 ![] bcast_S_S50000x128 (constant (F := Ideal) S_ .f32 0x00000000#32)) (dstCol ei)
    (Host.gather gather_S50000x128_S600000x1_S600000x128_1_0_n_n_0_1_1128 z (srcCol ei))

/-- The in-degrees: ones scatter-added at the destinations. -/
def deg (ei : (⟨S2x600000, .i32⟩ : BufTy).Contents (Elt Ideal)) : FVec Ideal S50000 .f32 :=
  Host.scatterAdd scatter_S50000_S600000x1_S600000_n_0_0_1 (broadcastInDim S50000 ![] bcast_S_S50000 (constant (F := Ideal) S_ .f32 0x00000000#32)) (dstCol ei)
    (broadcastInDim S600000 ![] bcast_S_S600000 (constant (F := Ideal) S_ .f32 0x3F800000#32))

/-- The in-degrees raised to at least one. -/
def degMax (ei : (⟨S2x600000, .i32⟩ : BufTy).Contents (Elt Ideal)) : FVec Ideal S50000 .f32 :=
  maximumf (deg ei) (broadcastInDim S50000 ![] bcast_S_S50000 (constant (F := Ideal) S_ .f32 0x3F800000#32))

/-- The reciprocals `1 / degMax`, computed once and shared by the two layers. -/
def degInv (ei : (⟨S2x600000, .i32⟩ : BufTy).Contents (Elt Ideal)) : FVec Ideal S50000 .f32 :=
  Host.divf (broadcastInDim S50000 ![] bcast_S_S50000 (constant (F := Ideal) S_ .f32 0x3F800000#32)) (degMax ei)

/-- The mean as the kernel's caller forms it: sums times copied reciprocals. -/
def meanK (z : FVec Ideal S50000x128 .f32) (ei : (⟨S2x600000, .i32⟩ : BufTy).Contents (Elt Ideal)) :
    FVec Ideal S50000x128 .f32 :=
  mulf (agg z ei) (broadcastInDim S50000x128 ![0, 1] bcast_S50000x1_S50000x128_0_1 (broadcastInDim S50000x1 ![0] bcast_S50000_S50000x1_0 (degInv ei)))

/-- The mean as the reference forms it: sums divided by copied degrees. -/
def meanR (z : FVec Ideal S50000x128 .f32) (ei : (⟨S2x600000, .i32⟩ : BufTy).Contents (Elt Ideal)) :
    FVec Ideal S50000x128 .f32 :=
  Host.divf (agg z ei) (broadcastInDim S50000x128 ![0, 1] bcast_S50000x1_S50000x128_0_1 (broadcastInDim S50000x1 ![0] bcast_S50000_S50000x1_0 (degMax ei)))

/-- The two means are one array. -/
theorem meanK_eq_meanR (z : FVec Ideal S50000x128 .f32) (ei : (⟨S2x600000, .i32⟩ : BufTy).Contents (Elt Ideal)) :
    meanK z ei = meanR z ei :=
  mean_forms bcast_S_S50000 bcast_S50000_S50000x1_0 bcast_S50000x1_S50000x128_0_1 (agg z ei) (deg ei)

/-! ## What the first region finds -/

variable (m : (ℓ : Loc nD τ sig) → Buf (Elt Ideal) ℓ) (ρ : Dev nD → PrngReg)

theorem V1_mean (c : Dev nD) :
    V1 m ρ c main_v24 = meanK (m ((c : Thread nD τ).loc main_arg0)) (m ((c : Thread nD τ).loc main_arg1)) := by
  show StableHlo.after hostOps0 (W0 m ρ c) (Proc.devRef .tc main_v24) = _
  dsimp only [hostOps0]
  after_results_simp
  rfl

theorem V1_bias (c : Dev nD) :
    V1 m ρ c main_v25 = shapeCast S1x128 (m ((c : Thread nD τ).loc main_arg4)) shapeCasts_S128_S1x128 := by
  show StableHlo.after hostOps0 (W0 m ρ c) (Proc.devRef .tc main_v25) = _
  dsimp only [hostOps0]
  after_results_simp
  rfl

theorem V1_arg0 (c : Dev nD) : V1 m ρ c main_arg0 = m ((c : Thread nD τ).loc main_arg0) := by
  show StableHlo.after hostOps0 (W0 m ρ c) (Proc.devRef .tc main_arg0) = _
  dsimp only [hostOps0]
  after_results_simp

theorem V1_arg2 (c : Dev nD) : V1 m ρ c main_arg2 = m ((c : Thread nD τ).loc main_arg2) := by
  show StableHlo.after hostOps0 (W0 m ρ c) (Proc.devRef .tc main_arg2) = _
  dsimp only [hostOps0]
  after_results_simp

theorem V1_arg3 (c : Dev nD) : V1 m ρ c main_arg3 = m ((c : Thread nD τ).loc main_arg3) := by
  show StableHlo.after hostOps0 (W0 m ρ c) (Proc.devRef .tc main_arg3) = _
  dsimp only [hostOps0]
  after_results_simp

end Cert.Sage.Chain

end
-- ==== Proof.LayerSpec.lean ====
/-
  One SAGE linear layer, entry by entry, on the extended reals.

  For node features `mean` (the normalised neighbourhood sums) and `x` (the node's own features), both
  [50000, 128], weights `Wl`, `Wr` of shape [128, C] and a bias row `b` of shape [1, C], the layer's output at
  row `r`, column `q` is

      (∑ k, mean[r, k] · Wl[k, q]) + (∑ k, x[r, k] · Wr[k, q]) + b[0, q].

  Both programs compute exactly this, in this order of additions: the reference with two whole-array products,
  the kernel block of 5000 rows by block. The first layer is followed by a maximum with zero.
-/
import Idealize.ShloMosaic.Lib.ValueIdx
import Idealize.ShloMosaic.PureOps.Ideal.Laws

noncomputable section

namespace Cert.Sage

open Idealize.ShloMosaic

/-- Entry `(r, k)` of an [R, 128] array, `r` the row of the output index `i`. -/
abbrev rowAt {R C : Nat} (i : (⟨2, ![R, C]⟩ : Shape).Idx) (k : Fin 128) : (⟨2, ![R, 128]⟩ : Shape).Idx := fun a => match a with
  | ⟨0, _⟩ => ⟨(i 0).val, (i 0).isLt⟩
  | ⟨1, _⟩ => ⟨k.val, k.isLt⟩

/-- Entry `(k, q)` of a [128, C] weight array, `q` the column of the output index `i`. -/
abbrev colAt {R C : Nat} (i : (⟨2, ![R, C]⟩ : Shape).Idx) (k : Fin 128) : (⟨2, ![128, C]⟩ : Shape).Idx := fun a => match a with
  | ⟨0, _⟩ => ⟨k.val, k.isLt⟩
  | ⟨1, _⟩ => ⟨(i 1).val, (i 1).isLt⟩

/-- Entry `(0, q)` of a [1, C] bias row, `q` the column of the output index `i`. -/
abbrev biasAt {R C : Nat} (i : (⟨2, ![R, C]⟩ : Shape).Idx) : (⟨2, ![1, C]⟩ : Shape).Idx := fun a => match a with
  | ⟨0, _⟩ => ⟨0, Nat.one_pos⟩
  | ⟨1, _⟩ => ⟨(i 1).val, (i 1).isLt⟩

/-- The layer's output on `R` rows, entry by entry: two row-by-column products and the bias, added in the order
    both programs add them. -/
def lin {R C : Nat} (mean x : (⟨2, ![R, 128]⟩ : Shape).Idx → EReal) (Wl Wr : (⟨2, ![128, C]⟩ : Shape).Idx → EReal)
    (b : (⟨2, ![1, C]⟩ : Shape).Idx → EReal) : (⟨2, ![R, C]⟩ : Shape).Idx → EReal :=
  fun i => (∑ k : Fin 128, mean (rowAt i k) * Wl (colAt i k)) + (∑ k : Fin 128, x (rowAt i k) * Wr (colAt i k)) + b (biasAt i)

/-- The first layer's output: the same followed by the maximum with the f32 zero word (the word is the same on
    both sides and is never evaluated). -/
def linRelu {R C : Nat} (mean x : (⟨2, ![R, 128]⟩ : Shape).Idx → EReal) (Wl Wr : (⟨2, ![128, C]⟩ : Shape).Idx → EReal)
    (b : (⟨2, ![1, C]⟩ : Shape).Idx → EReal) : (⟨2, ![R, C]⟩ : Shape).Idx → EReal :=
  fun i => max (lin mean x Wl Wr b i) (Ideal.ofBits .f32 0x00000000#32)

theorem lin_apply {R C : Nat} (mean x : (⟨2, ![R, 128]⟩ : Shape).Idx → EReal) (Wl Wr : (⟨2, ![128, C]⟩ : Shape).Idx → EReal)
    (b : (⟨2, ![1, C]⟩ : Shape).Idx → EReal) (i : (⟨2, ![R, C]⟩ : Shape).Idx) :
    lin mean x Wl Wr b i
      = (∑ k : Fin 128, mean (rowAt i k) * Wl (colAt i k)) + (∑ k : Fin 128, x (rowAt i k) * Wr (colAt i k)) + b (biasAt i) := rfl

theorem linRelu_apply {R C : Nat} (mean x : (⟨2, ![R, 128]⟩ : Shape).Idx → EReal) (Wl Wr : (⟨2, ![128, C]⟩ : Shape).Idx → EReal)
    (b : (⟨2, ![1, C]⟩ : Shape).Idx → EReal) (i : (⟨2, ![R, C]⟩ : Shape).Idx) :
    linRelu mean x Wl Wr b i = max (lin mean x Wl Wr b i) (Ideal.ofBits .f32 0x00000000#32) := rfl

/-! ## A plain product `[M, 128] · [128, C]` read at an entry

Both programs' products contract the left operand's second axis with the right operand's first and keep the other
two axes in order: the library's `DotDims.plain M 128 C`. Its operand positions at output entry `(r, q)` and
contracted position `k` are `(r, k)` and `(k, q)`; re-indexing the one-axis contraction shape by `Fin 128` turns
either program's product into the sum the layer function is written with. -/

theorem plain_lhs_0 {M C : Nat} (i : (⟨2, ![M, C]⟩ : Shape).Idx) (q : (DotDims.plain M 128 C).contr.Idx) :
    ((DotDims.plain M 128 C).lhsIdx i q 0).val = (i 0).val := rfl
theorem plain_lhs_1 {M C : Nat} (i : (⟨2, ![M, C]⟩ : Shape).Idx) (q : (DotDims.plain M 128 C).contr.Idx) :
    ((DotDims.plain M 128 C).lhsIdx i q 1).val = (q ⟨0, Nat.one_pos⟩).val := rfl
theorem plain_rhs_0 {M C : Nat} (i : (⟨2, ![M, C]⟩ : Shape).Idx) (q : (DotDims.plain M 128 C).contr.Idx) :
    ((DotDims.plain M 128 C).rhsIdx i q 0).val = (q ⟨0, Nat.one_pos⟩).val := rfl
theorem plain_rhs_1 {M C : Nat} (i : (⟨2, ![M, C]⟩ : Shape).Idx) (q : (DotDims.plain M 128 C).contr.Idx) :
    ((DotDims.plain M 128 C).rhsIdx i q 1).val = (i 1).val := rfl

/-- The summand of a plain product at contracted position `k`, whichever operation forms the sum. -/
theorem plain_summand {M C : Nat} (l : (⟨2, ![M, 128]⟩ : Shape).Idx → EReal) (w : (⟨2, ![128, C]⟩ : Shape).Idx → EReal)
    (i : (⟨2, ![M, C]⟩ : Shape).Idx) (k : Fin 128) :
    l ((DotDims.plain M 128 C).lhsIdx i ((ValueIdx.contrEquiv1 (DotDims.plain M 128 C) 128 rfl rfl).symm k))
        * w ((DotDims.plain M 128 C).rhsIdx i ((ValueIdx.contrEquiv1 (DotDims.plain M 128 C) 128 rfl rfl).symm k))
      = l (rowAt i k) * w (colAt i k) := by
  have hk := ValueIdx.contrEquiv1_symm_val (DotDims.plain M 128 C) 128 rfl rfl k
  have el : (DotDims.plain M 128 C).lhsIdx i ((ValueIdx.contrEquiv1 (DotDims.plain M 128 C) 128 rfl rfl).symm k) = rowAt i k :=
    funext fun a => Fin.ext (by
      match a with
      | ⟨0, _⟩ => exact plain_lhs_0 _ _
      | ⟨1, _⟩ => exact (plain_lhs_1 _ _).trans hk)
  have er : (DotDims.plain M 128 C).rhsIdx i ((ValueIdx.contrEquiv1 (DotDims.plain M 128 C) 128 rfl rfl).symm k) = colAt i k :=
    funext fun a => Fin.ext (by
      match a with
      | ⟨0, _⟩ => exact (plain_rhs_0 _ _).trans hk
      | ⟨1, _⟩ => exact plain_rhs_1 _ _)
  rw [el, er]

/-- A kernel's block product into a zero accumulator, at an entry: the sum over the 128 contracted positions. -/
theorem matmul_plain_apply {M C : Nat} {φ₁ φ₂ : FTy} (l : FVec Ideal ⟨2, ![M, 128]⟩ φ₁) (w : FVec Ideal ⟨2, ![128, C]⟩ φ₂)
    (i : (⟨2, ![M, C]⟩ : Shape).Idx) :
    FloatOps.matmul (DotDims.plain M 128 C) none l w (constant ⟨2, ![M, C]⟩ .f32 0x00000000#32) i
      = ∑ k : Fin 128, l (rowAt i k) * w (colAt i k) := by
  rw [Ideal.matmul_constant_zero_apply, ← Equiv.sum_comp (ValueIdx.contrEquiv1 (DotDims.plain M 128 C) 128 rfl rfl).symm]
  exact Finset.sum_congr rfl fun k _ => plain_summand l w i k

/-- The host's whole-array product at an entry: the same sum. -/
theorem dotGeneral_plain_apply {M C : Nat} {φ₁ φ₂ : FTy} (sched : HostSchedule) (l : FVec Ideal ⟨2, ![M, 128]⟩ φ₁)
    (w : FVec Ideal ⟨2, ![128, C]⟩ φ₂) (i : (⟨2, ![M, C]⟩ : Shape).Idx) :
    FloatOps.dotGeneral (DotDims.plain M 128 C) none sched l w i = ∑ k : Fin 128, l (rowAt i k) * w (colAt i k) := by
  rw [Ideal.dotGeneral_apply, ← Equiv.sum_comp (ValueIdx.contrEquiv1 (DotDims.plain M 128 C) 128 rfl rfl).symm]
  exact Finset.sum_congr rfl fun k _ => plain_summand l w i k

end Cert.Sage

end
-- ==== Proof.KerLayer.lean ====
/-
  The kernel's block bodies, entry by entry.

  Each grid point holds a block of 5000 rows of the two feature arrays and the whole weight and bias arrays, and
  stores `(mean_blk · Wl) + (x_blk · Wr) + b` (followed, in the first layer, by the maximum with zero). On the
  extended reals the narrowing of the operands to bf16 is the identity and a block product into a zero accumulator
  is the plain sum of products, so the stored block is the layer function `Sage.lin` (or `Sage.linRelu`) of the blocks.
-/
import proofs.«108358_j50190987821456_1_alg».proof.Proof.Gen.KernelIdeal.Skeleton
import proofs.«108358_j50190987821456_1_alg».proof.Proof.LayerSpec
import Idealize.ShloMosaic.Lib.Pipeline.Value
import Idealize.ShloMosaic.Lib.ValueIdx
import Idealize.ShloMosaic.PureOps.Ideal.Laws

noncomputable section

namespace Cert.Sage.Ker

open Cert.KernelIdeal Cert.KernelIdeal.Gen Cert.Sage Idealize.ShloMosaic Idealize.ShloMosaic.TcCoe

/-- The first layer's block product is the plain `[5000, 128] · [128, 128]`. -/
theorem dotA_eq : dot_S5000x128_S128x128_S5000x128_1_0_0_1_n_n = DotDims.plain 5000 128 128 := rfl
/-- The second layer's block product is the plain `[5000, 128] · [128, 64]`. -/
theorem dotB_eq : dot_S5000x128_S128x64_S5000x64_1_0_0_1_n_n = DotDims.plain 5000 128 64 := rfl

/-- The first layer's stored block: the layer function of the blocks, then the maximum with zero. -/
theorem pay0_apply (xm xx : Vec Ideal S5000x128 .f32) (wl wr : Vec Ideal S128x128 .f32) (b : Vec Ideal S1x128 .f32) (j : S5000x128.Idx) :
    k0_pay1 (F := Ideal) xm xx wl wr b j = linRelu xm xx wl wr b j := by
  unfold k0_pay1
  rw [linRelu_apply, lin_apply, ValueIdx.maximumf_apply, ValueIdx.addf_apply, ValueIdx.addf_apply, ValueIdx.broadcast_apply,
    shapeCast_self, shapeCast_self, dotA_eq]
  simp only [matmul]
  rw [matmul_plain_apply, matmul_plain_apply,
    broadcastTo_apply b broadcasts_S1x128_S5000x128 j (biasAt j) (fun a => by
      match a with
      | ⟨0, _⟩ => rfl
      | ⟨1, _⟩ => rfl)]
  rfl

/-- The second layer's stored block: the layer function of the blocks (no maximum). -/
theorem pay1_apply (xm xx : Vec Ideal S5000x128 .f32) (wl wr : Vec Ideal S128x64 .f32) (b : Vec Ideal S1x64 .f32) (j : S5000x64.Idx) :
    k1_pay1 (F := Ideal) xm xx wl wr b j = lin xm xx wl wr b j := by
  unfold k1_pay1
  rw [lin_apply, ValueIdx.addf_apply, ValueIdx.addf_apply, shapeCast_self, shapeCast_self, shapeCast_self, dotB_eq]
  simp only [matmul]
  rw [matmul_plain_apply, matmul_plain_apply,
    broadcastTo_apply b broadcasts_S1x64_S5000x64 j (biasAt j) (fun a => by
      match a with
      | ⟨0, _⟩ => rfl
      | ⟨1, _⟩ => rfl)]
  rfl

end Cert.Sage.Ker

end
-- ==== Proof.Region0.lean ====
/-
  The first layer's region: what its output array holds when the region ends.

  The region runs ten grid points. Point `t` reads rows `5000·t … 5000·t + 4999` of the two feature arrays, the
  whole weight arrays and the bias row, and writes the same rows of the output. The stored block is the layer
  function of the blocks (`Ker.pay0_apply`); a block's entry `(p, k)` is the array's entry `(5000·t + p, k)`, so
  what point `t` writes back is block `t` of ONE whole-array function, `G0`: the layer function of the arrays the
  region finds. The ten blocks tile the 50000 rows, hence the output array ends at `G0`.
-/
import proofs.«108358_j50190987821456_1_alg».proof.Proof.Gen.KernelIdeal.Frame
import proofs.«108358_j50190987821456_1_alg».proof.Proof.LayerSpec
import proofs.«108358_j50190987821456_1_alg».proof.Proof.KerLayer
import Idealize.ShloMosaic.Lib.Pipeline.Value

set_option maxRecDepth 16384

noncomputable section

namespace Cert.Sage.Reg0

open Cert.KernelIdeal Cert.KernelIdeal.Gen Cert.Sage Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The arrays the region finds, and the blocks a point reads, at their literal types -/

abbrev meanArr (c : Dev nD) : (⟨2, ![50000, 128]⟩ : Shape).Idx → EReal := V c main_v24
abbrev featArr (c : Dev nD) : (⟨2, ![50000, 128]⟩ : Shape).Idx → EReal := V c main_arg0
abbrev wlArr (c : Dev nD) : (⟨2, ![128, 128]⟩ : Shape).Idx → EReal := V c main_arg2
abbrev wrArr (c : Dev nD) : (⟨2, ![128, 128]⟩ : Shape).Idx → EReal := V c main_arg3
abbrev biasArr (c : Dev nD) : (⟨2, ![1, 128]⟩ : Shape).Idx → EReal := V c main_v25

abbrev meanBlk (c : Dev nD) (t : Fin cfg0.N) : (⟨2, ![5000, 128]⟩ : Shape).Idx → EReal := iblk0 V c 0 t
abbrev featBlk (c : Dev nD) (t : Fin cfg0.N) : (⟨2, ![5000, 128]⟩ : Shape).Idx → EReal := iblk0 V c 1 t
abbrev wlBlk (c : Dev nD) (t : Fin cfg0.N) : (⟨2, ![128, 128]⟩ : Shape).Idx → EReal := iblk0 V c 2 t
abbrev wrBlk (c : Dev nD) (t : Fin cfg0.N) : (⟨2, ![128, 128]⟩ : Shape).Idx → EReal := iblk0 V c 3 t
abbrev biasBlk (c : Dev nD) (t : Fin cfg0.N) : (⟨2, ![1, 128]⟩ : Shape).Idx → EReal := iblk0 V c 4 t

/-- The first layer's output as one function of the arrays the region finds. -/
def G0 (c : Dev nD) : (⟨2, ![50000, 128]⟩ : Shape).Idx → EReal :=
  linRelu (meanArr V c) (featArr V c) (wlArr V c) (wrArr V c) (biasArr V c)

/-- The printed block positions over the grid: the two feature windows and the output move down the rows with the
    point, block `t` at point `t`; the weights and the bias stay at their one block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## A block's entry is the array's entry, 5000·t rows further down -/

theorem meanBlk_read (c : Dev nD) (t : Fin cfg0.N) (y : (⟨2, ![5000, 128]⟩ : Shape).Idx) (i : (⟨2, ![50000, 128]⟩ : Shape).Idx)
    (h0 : (i 0).val = t.val * 5000 + (y 0).val) (h1 : (i 1).val = (y 1).val) : meanBlk V c t y = meanArr V c i := by
  obtain ⟨e0, e1, -⟩ := idx_facts0 t
  show V c main_v24 (((cfg0.win 0).blk t).view.emb y) = V c main_v24 i
  have e : ((cfg0.win 0).blk t).view.emb y = i := by
    funext a; apply Fin.ext
    match a with
    | ⟨0, _⟩ => show win0_0.index t (0 : Fin 2) * 5000 + 1 * (y 0).val = (i 0).val; omega
    | ⟨1, _⟩ => show win0_0.index t (1 : Fin 2) * 128 + 1 * (y 1).val = (i 1).val; omega
  rw [e]

theorem featBlk_read (c : Dev nD) (t : Fin cfg0.N) (y : (⟨2, ![5000, 128]⟩ : Shape).Idx) (i : (⟨2, ![50000, 128]⟩ : Shape).Idx)
    (h0 : (i 0).val = t.val * 5000 + (y 0).val) (h1 : (i 1).val = (y 1).val) : featBlk V c t y = featArr V c i := by
  obtain ⟨-, -, e0, e1, -⟩ := idx_facts0 t
  show V c main_arg0 (((cfg0.win 1).blk t).view.emb y) = V c main_arg0 i
  have e : ((cfg0.win 1).blk t).view.emb y = i := by
    funext a; apply Fin.ext
    match a with
    | ⟨0, _⟩ => show win0_1.index t (0 : Fin 2) * 5000 + 1 * (y 0).val = (i 0).val; omega
    | ⟨1, _⟩ => show win0_1.index t (1 : Fin 2) * 128 + 1 * (y 1).val = (i 1).val; omega
  rw [e]

theorem wlBlk_read (c : Dev nD) (t : Fin cfg0.N) (y i : (⟨2, ![128, 128]⟩ : Shape).Idx)
    (h0 : (i 0).val = (y 0).val) (h1 : (i 1).val = (y 1).val) : wlBlk V c t y = wlArr V c i := by
  obtain ⟨-, -, -, -, e0, e1, -⟩ := idx_facts0 t
  show V c main_arg2 (((cfg0.win 2).blk t).view.emb y) = V c main_arg2 i
  have e : ((cfg0.win 2).blk t).view.emb y = i := by
    funext a; apply Fin.ext
    match a with
    | ⟨0, _⟩ => show win0_2.index t (0 : Fin 2) * 128 + 1 * (y 0).val = (i 0).val; omega
    | ⟨1, _⟩ => show win0_2.index t (1 : Fin 2) * 128 + 1 * (y 1).val = (i 1).val; omega
  rw [e]

theorem wrBlk_read (c : Dev nD) (t : Fin cfg0.N) (y i : (⟨2, ![128, 128]⟩ : Shape).Idx)
    (h0 : (i 0).val = (y 0).val) (h1 : (i 1).val = (y 1).val) : wrBlk V c t y = wrArr V c i := by
  obtain ⟨-, -, -, -, -, -, e0, e1, -⟩ := idx_facts0 t
  show V c main_arg3 (((cfg0.win 3).blk t).view.emb y) = V c main_arg3 i
  have e : ((cfg0.win 3).blk t).view.emb y = i := by
    funext a; apply Fin.ext
    match a with
    | ⟨0, _⟩ => show win0_3.index t (0 : Fin 2) * 128 + 1 * (y 0).val = (i 0).val; omega
    | ⟨1, _⟩ => show win0_3.index t (1 : Fin 2) * 128 + 1 * (y 1).val = (i 1).val; omega
  rw [e]

theorem biasBlk_read (c : Dev nD) (t : Fin cfg0.N) (y i : (⟨2, ![1, 128]⟩ : Shape).Idx)
    (h0 : (i 0).val = (y 0).val) (h1 : (i 1).val = (y 1).val) : biasBlk V c t y = biasArr V c i := by
  obtain ⟨-, -, -, -, -, -, -, -, e0, e1, -⟩ := idx_facts0 t
  show V c main_v25 (((cfg0.win 4).blk t).view.emb y) = V c main_v25 i
  have e : ((cfg0.win 4).blk t).view.emb y = i := by
    funext a; apply Fin.ext
    match a with
    | ⟨0, _⟩ => show win0_4.index t (0 : Fin 2) * 1 + 1 * (y 0).val = (i 0).val; omega
    | ⟨1, _⟩ => show win0_4.index t (1 : Fin 2) * 128 + 1 * (y 1).val = (i 1).val; omega
  rw [e]

/-- The layer function of point `t`'s blocks at a block entry is the layer function of the arrays at the entry
    5000·t rows further down. -/
theorem blocks_eq (c : Dev nD) (t : Fin cfg0.N) (j : (⟨2, ![5000, 128]⟩ : Shape).Idx) (i : (⟨2, ![50000, 128]⟩ : Shape).Idx)
    (h0 : (i 0).val = t.val * 5000 + (j 0).val) (h1 : (i 1).val = (j 1).val) :
    linRelu (meanBlk V c t) (featBlk V c t) (wlBlk V c t) (wrBlk V c t) (biasBlk V c t) j = G0 V c i := by
  unfold G0
  rw [linRelu_apply, linRelu_apply, lin_apply, lin_apply]
  have s1 : ∀ k : Fin 128, meanBlk V c t (rowAt j k) * wlBlk V c t (colAt j k) = meanArr V c (rowAt i k) * wlArr V c (colAt i k) := fun k => by
    rw [meanBlk_read V c t (rowAt j k) (rowAt i k) h0 rfl, wlBlk_read V c t (colAt j k) (colAt i k) rfl h1]
  have s2 : ∀ k : Fin 128, featBlk V c t (rowAt j k) * wrBlk V c t (colAt j k) = featArr V c (rowAt i k) * wrArr V c (colAt i k) := fun k => by
    rw [featBlk_read V c t (rowAt j k) (rowAt i k) h0 rfl, wrBlk_read V c t (colAt j k) (colAt i k) rfl h1]
  rw [Finset.sum_congr rfl fun k _ => s1 k, Finset.sum_congr rfl fun k _ => s2 k,
    biasBlk_read V c t (biasAt j) (biasAt i) rfl h1]

/-! ## What a point writes back, and the whole array -/

/-- WHAT POINT `t` WRITES BACK is block `t` of `G0`. -/
theorem flushed0 (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext j
  obtain ⟨-, -, -, -, -, -, -, -, -, -, e0, e1⟩ := idx_facts0 t
  show k0_pay1 (F := Ideal) (meanBlk V c t) (featBlk V c t) (wlBlk V c t) (wrBlk V c t) (biasBlk V c t) j
    = G0 V c (((cfg0.win 5).blk t).view.emb j)
  refine (Ker.pay0_apply (meanBlk V c t) (featBlk V c t) (wlBlk V c t) (wrBlk V c t) (biasBlk V c t) j).trans ?_
  refine blocks_eq V c t j _ ?_ ?_
  · show win0_5.index t (0 : Fin 2) * 5000 + 1 * (j 0).val = t.val * 5000 + (j 0).val; omega
  · show win0_5.index t (1 : Fin 2) * 128 + 1 * (j 1).val = (j 1).val; omega

/-- An index of the output array is in point `t`'s block iff each coordinate is in the block's range on its axis. -/
theorem mem_blk0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- Every row lies in the block of the point `row / 5000`. -/
theorem cover0 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  let t : Fin cfg0.N := ⟨(i 0).val / 5000, by rw [show cfg0.N = 10 from N_0]; omega⟩
  obtain ⟨-, -, -, -, -, -, -, -, -, -, e0, e1⟩ := idx_facts0 t
  have ht : t.val = (i 0).val / 5000 := rfl
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE OUTPUT ARRAY when the region ends: the first layer's function of the arrays the region found. -/
theorem final0 (c : Dev nD) : (dat0 V c).arrAt 5 cfg0.N = G0 V c :=
  (dat0 V c).arrAt_eq_of_cover 5 (G0 V c) (fun t _ => flushed0 V c t) cover0

end Cert.Sage.Reg0

end
-- ==== Proof.Region1.lean ====
/-
  The second layer's region: what its output array holds when the region ends.

  As in the first layer the region runs ten grid points, point `t` reading rows `5000·t … 5000·t + 4999` of its two
  [50000, 128] feature arrays (the normalised neighbourhood sums of the hidden features, and the hidden features
  themselves), the whole [128, 64] weight arrays and the [1, 64] bias row, and writing the same rows of the
  [50000, 64] result. There is no maximum here: the stored block is the plain layer function of the blocks
  (`Ker.pay1_apply`), so what point `t` writes back is block `t` of `G1`, the layer function of the arrays the
  region finds, and the ten blocks tile the 50000 rows.
-/
import proofs.«108358_j50190987821456_1_alg».proof.Proof.Gen.KernelIdeal.Frame
import proofs.«108358_j50190987821456_1_alg».proof.Proof.LayerSpec
import proofs.«108358_j50190987821456_1_alg».proof.Proof.KerLayer
import Idealize.ShloMosaic.Lib.Pipeline.Value

set_option maxRecDepth 16384

noncomputable section

namespace Cert.Sage.Reg1

open Cert.KernelIdeal Cert.KernelIdeal.Gen Cert.Sage Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The arrays the region finds, and the blocks a point reads, at their literal types -/

abbrev meanArr (c : Dev nD) : (⟨2, ![50000, 128]⟩ : Shape).Idx → EReal := V c main_v39
abbrev hidArr (c : Dev nD) : (⟨2, ![50000, 128]⟩ : Shape).Idx → EReal := V c main_v26
abbrev wlArr (c : Dev nD) : (⟨2, ![128, 64]⟩ : Shape).Idx → EReal := V c main_arg5
abbrev wrArr (c : Dev nD) : (⟨2, ![128, 64]⟩ : Shape).Idx → EReal := V c main_arg6
abbrev biasArr (c : Dev nD) : (⟨2, ![1, 64]⟩ : Shape).Idx → EReal := V c main_v40

abbrev meanBlk (c : Dev nD) (t : Fin cfg1.N) : (⟨2, ![5000, 128]⟩ : Shape).Idx → EReal := iblk1 V c 0 t
abbrev hidBlk (c : Dev nD) (t : Fin cfg1.N) : (⟨2, ![5000, 128]⟩ : Shape).Idx → EReal := iblk1 V c 1 t
abbrev wlBlk (c : Dev nD) (t : Fin cfg1.N) : (⟨2, ![128, 64]⟩ : Shape).Idx → EReal := iblk1 V c 2 t
abbrev wrBlk (c : Dev nD) (t : Fin cfg1.N) : (⟨2, ![128, 64]⟩ : Shape).Idx → EReal := iblk1 V c 3 t
abbrev biasBlk (c : Dev nD) (t : Fin cfg1.N) : (⟨2, ![1, 64]⟩ : Shape).Idx → EReal := iblk1 V c 4 t

/-- The second layer's output as one function of the arrays the region finds. -/
def G1 (c : Dev nD) : (⟨2, ![50000, 64]⟩ : Shape).Idx → EReal :=
  lin (meanArr V c) (hidArr V c) (wlArr V c) (wrArr V c) (biasArr V c)

/-- The printed block positions over the grid: the two feature windows and the result move down the rows with the
    point; the weights and the bias stay at their one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## A block's entry is the array's entry, 5000·t rows further down -/

theorem meanBlk_read (c : Dev nD) (t : Fin cfg1.N) (y : (⟨2, ![5000, 128]⟩ : Shape).Idx) (i : (⟨2, ![50000, 128]⟩ : Shape).Idx)
    (h0 : (i 0).val = t.val * 5000 + (y 0).val) (h1 : (i 1).val = (y 1).val) : meanBlk V c t y = meanArr V c i := by
  obtain ⟨e0, e1, -⟩ := idx_facts1 t
  show V c main_v39 (((cfg1.win 0).blk t).view.emb y) = V c main_v39 i
  have e : ((cfg1.win 0).blk t).view.emb y = i := by
    funext a; apply Fin.ext
    match a with
    | ⟨0, _⟩ => show win1_0.index t (0 : Fin 2) * 5000 + 1 * (y 0).val = (i 0).val; omega
    | ⟨1, _⟩ => show win1_0.index t (1 : Fin 2) * 128 + 1 * (y 1).val = (i 1).val; omega
  rw [e]

theorem hidBlk_read (c : Dev nD) (t : Fin cfg1.N) (y : (⟨2, ![5000, 128]⟩ : Shape).Idx) (i : (⟨2, ![50000, 128]⟩ : Shape).Idx)
    (h0 : (i 0).val = t.val * 5000 + (y 0).val) (h1 : (i 1).val = (y 1).val) : hidBlk V c t y = hidArr V c i := by
  obtain ⟨-, -, e0, e1, -⟩ := idx_facts1 t
  show V c main_v26 (((cfg1.win 1).blk t).view.emb y) = V c main_v26 i
  have e : ((cfg1.win 1).blk t).view.emb y = i := by
    funext a; apply Fin.ext
    match a with
    | ⟨0, _⟩ => show win1_1.index t (0 : Fin 2) * 5000 + 1 * (y 0).val = (i 0).val; omega
    | ⟨1, _⟩ => show win1_1.index t (1 : Fin 2) * 128 + 1 * (y 1).val = (i 1).val; omega
  rw [e]

theorem wlBlk_read (c : Dev nD) (t : Fin cfg1.N) (y i : (⟨2, ![128, 64]⟩ : Shape).Idx)
    (h0 : (i 0).val = (y 0).val) (h1 : (i 1).val = (y 1).val) : wlBlk V c t y = wlArr V c i := by
  obtain ⟨-, -, -, -, e0, e1, -⟩ := idx_facts1 t
  show V c main_arg5 (((cfg1.win 2).blk t).view.emb y) = V c main_arg5 i
  have e : ((cfg1.win 2).blk t).view.emb y = i := by
    funext a; apply Fin.ext
    match a with
    | ⟨0, _⟩ => show win1_2.index t (0 : Fin 2) * 128 + 1 * (y 0).val = (i 0).val; omega
    | ⟨1, _⟩ => show win1_2.index t (1 : Fin 2) * 64 + 1 * (y 1).val = (i 1).val; omega
  rw [e]

theorem wrBlk_read (c : Dev nD) (t : Fin cfg1.N) (y i : (⟨2, ![128, 64]⟩ : Shape).Idx)
    (h0 : (i 0).val = (y 0).val) (h1 : (i 1).val = (y 1).val) : wrBlk V c t y = wrArr V c i := by
  obtain ⟨-, -, -, -, -, -, e0, e1, -⟩ := idx_facts1 t
  show V c main_arg6 (((cfg1.win 3).blk t).view.emb y) = V c main_arg6 i
  have e : ((cfg1.win 3).blk t).view.emb y = i := by
    funext a; apply Fin.ext
    match a with
    | ⟨0, _⟩ => show win1_3.index t (0 : Fin 2) * 128 + 1 * (y 0).val = (i 0).val; omega
    | ⟨1, _⟩ => show win1_3.index t (1 : Fin 2) * 64 + 1 * (y 1).val = (i 1).val; omega
  rw [e]

theorem biasBlk_read (c : Dev nD) (t : Fin cfg1.N) (y i : (⟨2, ![1, 64]⟩ : Shape).Idx)
    (h0 : (i 0).val = (y 0).val) (h1 : (i 1).val = (y 1).val) : biasBlk V c t y = biasArr V c i := by
  obtain ⟨-, -, -, -, -, -, -, -, e0, e1, -⟩ := idx_facts1 t
  show V c main_v40 (((cfg1.win 4).blk t).view.emb y) = V c main_v40 i
  have e : ((cfg1.win 4).blk t).view.emb y = i := by
    funext a; apply Fin.ext
    match a with
    | ⟨0, _⟩ => show win1_4.index t (0 : Fin 2) * 1 + 1 * (y 0).val = (i 0).val; omega
    | ⟨1, _⟩ => show win1_4.index t (1 : Fin 2) * 64 + 1 * (y 1).val = (i 1).val; omega
  rw [e]

/-- The layer function of point `t`'s blocks at a block entry is the layer function of the arrays at the entry
    5000·t rows further down. -/
theorem blocks_eq (c : Dev nD) (t : Fin cfg1.N) (j : (⟨2, ![5000, 64]⟩ : Shape).Idx) (i : (⟨2, ![50000, 64]⟩ : Shape).Idx)
    (h0 : (i 0).val = t.val * 5000 + (j 0).val) (h1 : (i 1).val = (j 1).val) :
    lin (meanBlk V c t) (hidBlk V c t) (wlBlk V c t) (wrBlk V c t) (biasBlk V c t) j = G1 V c i := by
  unfold G1
  rw [lin_apply, lin_apply]
  have s1 : ∀ k : Fin 128, meanBlk V c t (rowAt j k) * wlBlk V c t (colAt j k) = meanArr V c (rowAt i k) * wlArr V c (colAt i k) := fun k => by
    rw [meanBlk_read V c t (rowAt j k) (rowAt i k) h0 rfl, wlBlk_read V c t (colAt j k) (colAt i k) rfl h1]
  have s2 : ∀ k : Fin 128, hidBlk V c t (rowAt j k) * wrBlk V c t (colAt j k) = hidArr V c (rowAt i k) * wrArr V c (colAt i k) := fun k => by
    rw [hidBlk_read V c t (rowAt j k) (rowAt i k) h0 rfl, wrBlk_read V c t (colAt j k) (colAt i k) rfl h1]
  rw [Finset.sum_congr rfl fun k _ => s1 k, Finset.sum_congr rfl fun k _ => s2 k,
    biasBlk_read V c t (biasAt j) (biasAt i) rfl h1]

/-! ## What a point writes back, and the whole array -/

/-- WHAT POINT `t` WRITES BACK is block `t` of `G1`. -/
theorem flushed1 (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x64) hz, View.ld_unit_zero (S := S1x64) hz]
  funext j
  obtain ⟨-, -, -, -, -, -, -, -, -, -, e0, e1⟩ := idx_facts1 t
  show k1_pay1 (F := Ideal) (meanBlk V c t) (hidBlk V c t) (wlBlk V c t) (wrBlk V c t) (biasBlk V c t) j
    = G1 V c (((cfg1.win 5).blk t).view.emb j)
  refine (Ker.pay1_apply (meanBlk V c t) (hidBlk V c t) (wlBlk V c t) (wrBlk V c t) (biasBlk V c t) j).trans ?_
  refine blocks_eq V c t j _ ?_ ?_
  · show win1_5.index t (0 : Fin 2) * 5000 + 1 * (j 0).val = t.val * 5000 + (j 0).val; omega
  · show win1_5.index t (1 : Fin 2) * 64 + 1 * (j 1).val = (j 1).val; omega

/-- An index of the result array is in point `t`'s block iff each coordinate is in the block's range on its axis. -/
theorem mem_blk1 (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v41).slice (win1_5.rect t)).set ↔ _
  rw [View.set_slice_whole, Rect.mem_set_unit]
  exact Iff.rfl

/-- Every row lies in the block of the point `row / 5000`. -/
theorem cover1 (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  let t : Fin cfg1.N := ⟨(i 0).val / 5000, by rw [show cfg1.N = 10 from N_1]; omega⟩
  obtain ⟨-, -, -, -, -, -, -, -, -, -, e0, e1⟩ := idx_facts1 t
  have ht : t.val = (i 0).val / 5000 := rfl
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- THE RESULT ARRAY when the region ends: the second layer's function of the arrays the region found. -/
theorem final1 (c : Dev nD) : (dat1 V c).arrAt 5 cfg1.N = G1 V c :=
  (dat1 V c).arrAt_eq_of_cover 5 (G1 V c) (fun t _ => flushed1 V c t) cover1

end Cert.Sage.Reg1

end
-- ==== Proof.KernelValue.lean ====
/-
  The kernel program's result as one function of its eight arguments.

  The first region leaves `hidden = max(lin(meanK x, x, W1l, W1r, b1), 0)` in its output array (`Reg0.final0` at
  what that region finds). Between the regions the host forms `meanK hidden` with the SAME edge columns and the
  SAME reciprocals it computed before the first region, and the second region leaves
  `lin(meanK hidden, hidden, W2l, W2r, b2)` in the result array (`Reg1.final1`). Buffers a region does not write
  keep their contents across it, which is how the edge columns and the reciprocals reach the second stretch.
-/
import proofs.«108358_j50190987821456_1_alg».proof.Proof.HostChain
import proofs.«108358_j50190987821456_1_alg».proof.Proof.Region0
import proofs.«108358_j50190987821456_1_alg».proof.Proof.Region1
import proofs.«108358_j50190987821456_1_alg».proof.Proof.KernelRun

set_option maxRecDepth 16384

noncomputable section

namespace Cert.Sage.Chain

open Cert.KernelIdeal Cert.KernelIdeal.Gen Cert.Sage Idealize.ShloMosaic Idealize.ShloMosaic.TcCoe Idealize.SL.Sem
open Idealize.ShloMosaic.StableHlo

/-- The hidden features: the first layer of the kernel program. -/
def hidden (x : FVec Ideal S50000x128 .f32) (ei : (⟨S2x600000, .i32⟩ : BufTy).Contents (Elt Ideal))
    (W1l W1r : FVec Ideal S128x128 .f32) (b1 : FVec Ideal S128 .f32) : (⟨2, ![50000, 128]⟩ : Shape).Idx → EReal :=
  linRelu (meanK x ei) x W1l W1r (shapeCast S1x128 b1 shapeCasts_S128_S1x128)

/-- The kernel program's result. -/
def kernelOut (x : FVec Ideal S50000x128 .f32) (ei : (⟨S2x600000, .i32⟩ : BufTy).Contents (Elt Ideal))
    (W1l W1r : FVec Ideal S128x128 .f32) (b1 : FVec Ideal S128 .f32) (W2l W2r : FVec Ideal S128x64 .f32) (b2 : FVec Ideal S64 .f32) :
    (⟨2, ![50000, 64]⟩ : Shape).Idx → EReal :=
  lin (meanK (hidden x ei W1l W1r b1) ei) (hidden x ei W1l W1r b1) W2l W2r (shapeCast S1x64 b2 shapeCasts_S64_S1x64)

variable (m : (ℓ : Loc nD τ sig) → Buf (Elt Ideal) ℓ) (ρ : Dev nD → PrngReg)

/-! ## The first region's output -/

theorem region0_out (c : Dev nD) :
    (dat0 (V1 m ρ) c).arrAt 5 cfg0.N = hidden (m ((c : Thread nD τ).loc main_arg0)) (m ((c : Thread nD τ).loc main_arg1)) (m ((c : Thread nD τ).loc main_arg2)) (m ((c : Thread nD τ).loc main_arg3)) (m ((c : Thread nD τ).loc main_arg4)) := by
  rw [Reg0.final0 (V1 m ρ) c]
  show linRelu (V1 m ρ c main_v24) (V1 m ρ c main_arg0) (V1 m ρ c main_arg2) (V1 m ρ c main_arg3) (V1 m ρ c main_v25) = _
  rw [V1_mean m ρ c, V1_arg0 m ρ c, V1_arg2 m ρ c, V1_arg3 m ρ c, V1_bias m ρ c]
  rfl

/-! ## What the second stretch of host operations reads: buffers kept across the first region -/

theorem W2_src (c : Dev nD) : W2 m ρ c (Proc.devRef .tc main_v1) = srcVec (m ((c : Thread nD τ).loc main_arg1)) :=
  (W2_of_ne m ρ c main_v1 (by decide)).trans (by
    show StableHlo.after hostOps0 (W0 m ρ c) (Proc.devRef .tc main_v1) = _
    dsimp only [hostOps0]
    after_results_simp
    rfl)

theorem W2_dst (c : Dev nD) : W2 m ρ c (Proc.devRef .tc main_v3) = dstVec (m ((c : Thread nD τ).loc main_arg1)) :=
  (W2_of_ne m ρ c main_v3 (by decide)).trans (by
    show StableHlo.after hostOps0 (W0 m ρ c) (Proc.devRef .tc main_v3) = _
    dsimp only [hostOps0]
    after_results_simp
    rfl)

theorem W2_degInv (c : Dev nD) : W2 m ρ c (Proc.devRef .tc main_v11) = degInv (m ((c : Thread nD τ).loc main_arg1)) :=
  (W2_of_ne m ρ c main_v11 (by decide)).trans (by
    show StableHlo.after hostOps0 (W0 m ρ c) (Proc.devRef .tc main_v11) = _
    dsimp only [hostOps0]
    after_results_simp
    rfl)

theorem W2_hidden (c : Dev nD) : W2 m ρ c (Proc.devRef .tc main_v26) = (dat0 (V1 m ρ) c).arrAt 5 cfg0.N :=
  W2_arr m ρ c 5

theorem W2_arg5 (c : Dev nD) : W2 m ρ c (Proc.devRef .tc main_arg5) = (m ((c : Thread nD τ).loc main_arg5)) :=
  (W2_of_ne m ρ c main_arg5 (by decide)).trans (by
    show StableHlo.after hostOps0 (W0 m ρ c) (Proc.devRef .tc main_arg5) = _
    dsimp only [hostOps0]
    after_results_simp)

theorem W2_arg6 (c : Dev nD) : W2 m ρ c (Proc.devRef .tc main_arg6) = (m ((c : Thread nD τ).loc main_arg6)) :=
  (W2_of_ne m ρ c main_arg6 (by decide)).trans (by
    show StableHlo.after hostOps0 (W0 m ρ c) (Proc.devRef .tc main_arg6) = _
    dsimp only [hostOps0]
    after_results_simp)

theorem W2_arg7 (c : Dev nD) : W2 m ρ c (Proc.devRef .tc main_arg7) = (m ((c : Thread nD τ).loc main_arg7)) :=
  (W2_of_ne m ρ c main_arg7 (by decide)).trans (by
    show StableHlo.after hostOps0 (W0 m ρ c) (Proc.devRef .tc main_arg7) = _
    dsimp only [hostOps0]
    after_results_simp)

/-! ## What the second region finds -/

theorem V3_mean (c : Dev nD) :
    V3 m ρ c main_v39 = meanK ((dat0 (V1 m ρ) c).arrAt 5 cfg0.N) (m ((c : Thread nD τ).loc main_arg1)) := by
  show StableHlo.after hostOps1 (W2 m ρ c) (Proc.devRef .tc main_v39) = _
  dsimp only [hostOps1]
  after_results_simp
  rw [W2_src m ρ c, W2_dst m ρ c, W2_degInv m ρ c, W2_hidden m ρ c]
  rfl

theorem V3_hidden (c : Dev nD) : V3 m ρ c main_v26 = (dat0 (V1 m ρ) c).arrAt 5 cfg0.N := by
  show StableHlo.after hostOps1 (W2 m ρ c) (Proc.devRef .tc main_v26) = _
  dsimp only [hostOps1]
  after_results_simp
  exact W2_hidden m ρ c

theorem V3_arg5 (c : Dev nD) : V3 m ρ c main_arg5 = (m ((c : Thread nD τ).loc main_arg5)) := by
  show StableHlo.after hostOps1 (W2 m ρ c) (Proc.devRef .tc main_arg5) = _
  dsimp only [hostOps1]
  after_results_simp
  exact W2_arg5 m ρ c

theorem V3_arg6 (c : Dev nD) : V3 m ρ c main_arg6 = (m ((c : Thread nD τ).loc main_arg6)) := by
  show StableHlo.after hostOps1 (W2 m ρ c) (Proc.devRef .tc main_arg6) = _
  dsimp only [hostOps1]
  after_results_simp
  exact W2_arg6 m ρ c

theorem V3_bias (c : Dev nD) :
    V3 m ρ c main_v40 = shapeCast S1x64 (m ((c : Thread nD τ).loc main_arg7)) shapeCasts_S64_S1x64 := by
  show StableHlo.after hostOps1 (W2 m ρ c) (Proc.devRef .tc main_v40) = _
  dsimp only [hostOps1]
  after_results_simp
  rw [W2_arg7 m ρ c]
  rfl

/-! ## The result -/

/-- The result buffer at the program's last boundary holds `kernelOut` of the arguments. -/
theorem kernel_value (c : Dev nD) :
    W4 m ρ c (Proc.devRef .tc main_v41) = kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((W4_arr m ρ c 5).trans (Reg1.final1 (V3 m ρ) c)).trans ?_
  show lin (V3 m ρ c main_v39) (V3 m ρ c main_v26) (V3 m ρ c main_arg5) (V3 m ρ c main_arg6) (V3 m ρ c main_v40) = _
  rw [V3_mean m ρ c, V3_hidden m ρ c, V3_arg5 m ρ c, V3_arg6 m ρ c, V3_bias m ρ c, region0_out m ρ c]
  rfl

/-- Every weakly fair execution of the kernel program terminates with the result array at `kernelOut` of the
    argument arrays, the arguments unchanged. -/
theorem kernel_run : θ_run (defs (F := Ideal)) (onTc (τ := τ) (main (F := Ideal))) ⟨m, fun _ => 0, ρ⟩ (fun r => ∀ c : Dev nD,
      r.2.mem ((c.tc : Thread nD τ).loc main_v41) = kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono (fun r h c => ⟨(h c).1.trans (kernel_value m ρ c), (h c).2⟩)
    (Cert.KernelIdeal.RunNamed.run (F := Ideal) m ρ)

end Cert.Sage.Chain

end
-- ==== Proof.RefLayer.lean ====
/-
  The reference's layers, entry by entry.

  The reference forms each layer with two whole-array products, an addition, and the bias row broadcast down the
  50000 rows. On the extended reals the host's product is the plain sum of products, so the layer is the layer
  function `Sage.lin` of the whole arrays; the first layer's `relu` is the maximum with the zero word. The bias
  row reaches the two programs in two spellings — the reference broadcasts the [C] vector to [1, C], the kernel's
  caller reshapes it — which hold the same entries.
-/
import proofs.«108358_j50190987821456_1_alg».proof.Proof.Gen.ReferenceIdeal
import proofs.«108358_j50190987821456_1_alg».proof.Proof.LayerSpec
import Idealize.ShloMosaic.Lib.Pipeline.Value
import Idealize.ShloMosaic.Lib.ValueIdx
import Idealize.ShloMosaic.PureOps.Ideal.Laws

noncomputable section

namespace Cert.Sage.Ref

open Cert.ReferenceIdeal Cert.Sage Idealize.ShloMosaic Idealize.ShloMosaic.TcCoe

/-- The first layer's whole-array product is the plain `[50000, 128] · [128, 128]`. -/
theorem dotA_eq : dot_S50000x128_S128x128_S50000x128_1_0_0_1_n_n = DotDims.plain 50000 128 128 := rfl
/-- The second layer's whole-array product is the plain `[50000, 128] · [128, 64]`. -/
theorem dotB_eq : dot_S50000x128_S128x64_S50000x64_1_0_0_1_n_n = DotDims.plain 50000 128 64 := rfl

/-- The first layer before its maximum: the layer function of the whole arrays. -/
theorem layerA_eq (hb : S1x128.BroadcastsInDim S50000x128 (![0, 1] : Fin 2 → Fin S50000x128.rank))
    (mean x : FVec Ideal S50000x128 .f32) (Wl Wr : FVec Ideal S128x128 .f32) (b : FVec Ideal S1x128 .f32) :
    addf (addf (Host.dotGeneral dot_S50000x128_S128x128_S50000x128_1_0_0_1_n_n none mean Wl) (Host.dotGeneral dot_S50000x128_S128x128_S50000x128_1_0_0_1_n_n none x Wr))
        (broadcastInDim S50000x128 ![0, 1] hb b)
      = lin mean x Wl Wr b := by
  funext i
  rw [lin_apply, ValueIdx.addf_apply, ValueIdx.addf_apply, dotA_eq]
  simp only [Host.dotGeneral]
  rw [dotGeneral_plain_apply, dotGeneral_plain_apply,
    broadcastInDim_apply ![0, 1] hb b i (biasAt i) (fun a => by
      match a with
      | ⟨0, _⟩ => rfl
      | ⟨1, _⟩ => rfl)]

/-- The second layer: the layer function of the whole arrays. -/
theorem layerB_eq (hb : S1x64.BroadcastsInDim S50000x64 (![0, 1] : Fin 2 → Fin S50000x64.rank))
    (mean x : FVec Ideal S50000x128 .f32) (Wl Wr : FVec Ideal S128x64 .f32) (b : FVec Ideal S1x64 .f32) :
    addf (addf (Host.dotGeneral dot_S50000x128_S128x64_S50000x64_1_0_0_1_n_n none mean Wl) (Host.dotGeneral dot_S50000x128_S128x64_S50000x64_1_0_0_1_n_n none x Wr))
        (broadcastInDim S50000x64 ![0, 1] hb b)
      = lin mean x Wl Wr b := by
  funext i
  rw [lin_apply, ValueIdx.addf_apply, ValueIdx.addf_apply, dotB_eq]
  simp only [Host.dotGeneral]
  rw [dotGeneral_plain_apply, dotGeneral_plain_apply,
    broadcastInDim_apply ![0, 1] hb b i (biasAt i) (fun a => by
      match a with
      | ⟨0, _⟩ => rfl
      | ⟨1, _⟩ => rfl)]

/-- `relu` on the host: the maximum with the zero word at every entry. -/
theorem relu_eq (hz : S_.BroadcastsInDim S50000x128 (![] : Fin 0 → Fin S50000x128.rank)) (v : FVec Ideal S50000x128 .f32) :
    maximumf v (broadcastInDim S50000x128 ![] hz (constant S_ .f32 0x00000000#32))
      = fun i => max (v i) (Ideal.ofBits .f32 0x00000000#32) := by
  funext i
  rw [ValueIdx.maximumf_apply,
    broadcastInDim_apply ![] hz (constant (F := Ideal) S_ .f32 0x00000000#32) i ValueIdx.ix0 (fun a => a.elim0)]
  rfl

/-- The first layer with its `relu`. -/
theorem layerA_relu_eq (hb : S1x128.BroadcastsInDim S50000x128 (![0, 1] : Fin 2 → Fin S50000x128.rank))
    (hz : S_.BroadcastsInDim S50000x128 (![] : Fin 0 → Fin S50000x128.rank))
    (mean x : FVec Ideal S50000x128 .f32) (Wl Wr : FVec Ideal S128x128 .f32) (b : FVec Ideal S1x128 .f32) :
    maximumf (addf (addf (Host.dotGeneral dot_S50000x128_S128x128_S50000x128_1_0_0_1_n_n none mean Wl) (Host.dotGeneral dot_S50000x128_S128x128_S50000x128_1_0_0_1_n_n none x Wr))
        (broadcastInDim S50000x128 ![0, 1] hb b))
        (broadcastInDim S50000x128 ![] hz (constant S_ .f32 0x00000000#32))
      = linRelu mean x Wl Wr b := by
  rw [layerA_eq hb, relu_eq hz]
  rfl

/-- A [128] vector broadcast to a [1, 128] row holds the same entries as its reshape to [1, 128]. -/
theorem biasRowA_eq (hb : S128.BroadcastsInDim S1x128 (![1] : Fin 1 → Fin S1x128.rank)) (b : FVec Ideal S128 .f32) (h : S128.ShapeCasts S1x128) :
    broadcastInDim S1x128 ![1] hb b = shapeCast S1x128 b h := by
  funext j
  have hj0 : (j 0).val < 1 := (j 0).isLt
  rw [broadcastInDim_apply ![1] hb b j (ValueIdx.ix1 ⟨(j 1).val, (j 1).isLt⟩) (fun a => by
      match a with
      | ⟨0, _⟩ => rfl),
    shapeCast_apply b h j (ValueIdx.ix1 ⟨(j 1).val, (j 1).isLt⟩) (by
      rw [Shape.rowMajor_val_one, Shape.rowMajor_val_two]
      show (j 1).val = (j 0).val * 128 + (j 1).val
      omega)]

/-- A [64] vector broadcast to a [1, 64] row holds the same entries as its reshape to [1, 64]. -/
theorem biasRowB_eq (hb : S64.BroadcastsInDim S1x64 (![1] : Fin 1 → Fin S1x64.rank)) (b : FVec Ideal S64 .f32) (h : S64.ShapeCasts S1x64) :
    broadcastInDim S1x64 ![1] hb b = shapeCast S1x64 b h := by
  funext j
  have hj0 : (j 0).val < 1 := (j 0).isLt
  rw [broadcastInDim_apply ![1] hb b j (ValueIdx.ix1 ⟨(j 1).val, (j 1).isLt⟩) (fun a => by
      match a with
      | ⟨0, _⟩ => rfl),
    shapeCast_apply b h j (ValueIdx.ix1 ⟨(j 1).val, (j 1).isLt⟩) (by
      rw [Shape.rowMajor_val_one, Shape.rowMajor_val_two]
      show (j 1).val = (j 0).val * 64 + (j 1).val
      omega)]

end Cert.Sage.Ref

end
-- ==== Proof.Bridge.lean ====
/-
  The two programs compute one function of the arguments.

  The reference's run ends with its result at one composed term of the argument arrays. Its two layers are the layer
  function (`Ref.layerA_relu_eq`, `Ref.layerB_eq`), its means divide by the copied degrees (`meanR`), and its bias
  rows are broadcasts; that is `refOut`. The kernel program's `kernelOut` differs only in forming the means with the
  copied reciprocals and in reshaping the bias rows: the same arrays, by `meanK_eq_meanR` and `Ref.biasRow*_eq`. The
  gather, the scatter-adds and the index wrap are the same operations on the same operands in both programs and are
  carried along unopened; the two programs' copies of their dimension records are equal field by field.
-/
import proofs.«108358_j50190987821456_1_alg».proof.Proof.Gen.ReferenceIdeal.Run
import proofs.«108358_j50190987821456_1_alg».proof.Proof.RefLayer
import proofs.«108358_j50190987821456_1_alg».proof.Proof.KernelValue

set_option maxRecDepth 16384

noncomputable section

namespace Cert.Sage.Bridge

open Cert.KernelIdeal Cert.Sage Cert.Sage.Chain Idealize.ShloMosaic Idealize.ShloMosaic.TcCoe Idealize.SL.Sem

/-- The reference's hidden features. -/
def hiddenR (x : FVec Ideal S50000x128 .f32) (ei : (⟨S2x600000, .i32⟩ : BufTy).Contents (Elt Ideal))
    (W1l W1r : FVec Ideal S128x128 .f32) (b1 : FVec Ideal S128 .f32) : (⟨2, ![50000, 128]⟩ : Shape).Idx → EReal :=
  linRelu (meanR x ei) x W1l W1r (broadcastInDim S1x128 ![1] Cert.ReferenceIdeal.Gen.bcast_S128_S1x128_1 b1)

/-- The reference's result. -/
def refOut (x : FVec Ideal S50000x128 .f32) (ei : (⟨S2x600000, .i32⟩ : BufTy).Contents (Elt Ideal))
    (W1l W1r : FVec Ideal S128x128 .f32) (b1 : FVec Ideal S128 .f32) (W2l W2r : FVec Ideal S128x64 .f32) (b2 : FVec Ideal S64 .f32) :
    (⟨2, ![50000, 64]⟩ : Shape).Idx → EReal :=
  lin (meanR (hiddenR x ei W1l W1r b1) ei) (hiddenR x ei W1l W1r b1) W2l W2r
    (broadcastInDim S1x64 ![1] Cert.ReferenceIdeal.Gen.bcast_S64_S1x64_1 b2)

/-- The kernel program's result is the reference's, as functions of the arguments. -/
theorem out_eq (x : FVec Ideal S50000x128 .f32) (ei : (⟨S2x600000, .i32⟩ : BufTy).Contents (Elt Ideal))
    (W1l W1r : FVec Ideal S128x128 .f32) (b1 : FVec Ideal S128 .f32) (W2l W2r : FVec Ideal S128x64 .f32) (b2 : FVec Ideal S64 .f32) :
    kernelOut x ei W1l W1r b1 W2l W2r b2 = refOut x ei W1l W1r b1 W2l W2r b2 := by
  unfold kernelOut refOut Chain.hidden hiddenR
  rw [meanK_eq_meanR, meanK_eq_meanR,
    Ref.biasRowA_eq Cert.ReferenceIdeal.Gen.bcast_S128_S1x128_1 b1 Gen.shapeCasts_S128_S1x128,
    Ref.biasRowB_eq Cert.ReferenceIdeal.Gen.bcast_S64_S1x64_1 b2 Gen.shapeCasts_S64_S1x64]

/-- The reference run's result term is `refOut` of the argument arrays. -/
theorem ref_value (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v58 (F := Ideal) m' c
      = refOut (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7)) := by
  unfold Cert.ReferenceIdeal.Value.res_main_v58
  rw [Ref.layerA_relu_eq _ _, Ref.layerB_eq _]
  rfl

end Cert.Sage.Bridge

end
-- ==== Proof.lean ====
/-
  The certificate of a two-layer GraphSAGE forward pass (mean aggregation) over 50000 nodes and 600000 edges.

  Each layer is `lin(mean, z, Wl, Wr, b) = mean · Wl + z · Wr + b`, where `mean` is the sum of the neighbours' rows of
  `z` (a gather at the edges' sources, scatter-added at their destinations) divided by `max(in-degree, 1)`; the first
  layer is followed by a maximum with zero. The reference computes this with whole-array products on the host. The
  kernel program computes the in-degree reciprocals `1 / max(deg, 1)` once, multiplies the sums by them, and runs the
  dense part of each layer as a Pallas region over ten blocks of 5000 rows, its operands narrowed to bf16.

  On the extended reals the narrowing is the identity and a block product into a zero accumulator is the plain sum of
  products, so each region's output array is the layer function of the arrays it finds (Proof/Region0.lean,
  Proof/Region1.lean over Proof/KerLayer.lean), and the reference's layers are the same function (Proof/RefLayer.lean).
  The one algebraic difference is `a * (1 / max(d, 1))` against `a / max(d, 1)`: equal for every extended real `a`
  and `d`, since `max(d, 1) ≥ 1` is never zero (Proof/LibMeanLaw.lean, Proof/MeanForms.lean) — no finiteness of the
  inputs is used. The gather, the scatter-adds and the wrap of negative indices are the same operations on the same
  operands in both programs and are never opened (Proof/HostChain.lean, Proof/Bridge.lean).

  The three frames: the two kernel programs' by their generated frame certificates; the reference's is its
  generated run with the result dropped. The idealization rewrote no operation, so `preserves` is `True`.
-/
import proofs.«108358_j50190987821456_1_alg».proof.Defs
import proofs.«108358_j50190987821456_1_alg».proof.Proof.Gen.Kernel
import proofs.«108358_j50190987821456_1_alg».proof.Proof.Gen.Kernel.Frame
import proofs.«108358_j50190987821456_1_alg».proof.Proof.Gen.KernelIdeal
import proofs.«108358_j50190987821456_1_alg».proof.Proof.Gen.KernelIdeal.Frame
import proofs.«108358_j50190987821456_1_alg».proof.Proof.Gen.ReferenceIdeal
import proofs.«108358_j50190987821456_1_alg».proof.Proof.Gen.ReferenceIdeal.Run
import proofs.«108358_j50190987821456_1_alg».proof.Proof.Gen.Pre_finite_inputs
import proofs.«108358_j50190987821456_1_alg».proof.Proof.KernelValue
import proofs.«108358_j50190987821456_1_alg».proof.Proof.Bridge

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the eight arguments, the kernel program ends with its result at `kernelOut` of them
    and the reference at `refOut` of them: one function (`Bridge.out_eq`). -/
theorem algebraic : Cert.algebraic_KernelIdeal_ReferenceIdeal := by
  intro m ρ m' ρ' _ hagree
  refine ⟨fun c => Cert.Sage.Chain.kernelOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.Sage.Chain.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.Sage.Bridge.ref_value m' c, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.Sage.Bridge.out_eq _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
